-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x256 .f32) (main_arg9 : FVec F S1 .f32) (main_v33 : IVec S_ 1) : IVec S_ 1 :=
  let main_v34 : FVec F S1x256 .f32 := Host.absf main_arg8
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S256x256 .f32) (main_arg6 : FVec F S256 .f32) (main_arg7 : FVec F S256x256 .f32) (main_arg8 : FVec F S1x256 .f32) (main_arg9 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) (main_arg8 : FVec F S1x256 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S256x1 : Shape := ⟨2, ![256, 1]⟩
abbrev S1x1 : Shape := ⟨2, ![1, 1]⟩
abbrev S2000x1 : Shape := ⟨2, ![2000, 1]⟩

abbrev nBuf : Space → Nat
  | .hbm => 69
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x256, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S50000x1, .f32⟩
  | .hbm, ⟨21, _⟩ => ⟨S_, .f32⟩
  | .hbm, ⟨22, _⟩ => ⟨S_, .f32⟩
  | .hbm, ⟨23, _⟩ => ⟨S50000x1, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S128x256, .f32⟩
  | .hbm, ⟨44, _⟩ => ⟨S128x256, .f32⟩
  | .hbm, ⟨45, _⟩ => ⟨S1x256, .f32⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S_, .f32⟩
  | .hbm, ⟨57, _⟩ => ⟨S50000x256, .f32⟩
  | .hbm, ⟨58, _⟩ => ⟨S800000x1, .i32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S256x256, .f32⟩
  | .hbm, ⟨63, _⟩ => ⟨S256x256, .f32⟩
  | .hbm, ⟨64, _⟩ => ⟨S256x1, .f32⟩
  | .hbm, ⟨65, _⟩ => ⟨S1x256, .f32⟩
  | .hbm, ⟨66, _⟩ => ⟨S1x1, .f32⟩
  | .hbm, ⟨67, _⟩ => ⟨S50000x1, .f32⟩
  | .hbm, ⟨68, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S256x1, .f32⟩
  | .local _ .vmem, ⟨17, _⟩ => ⟨S1x1, .f32⟩
  | .local _ .vmem, ⟨18, _⟩ => ⟨S2000x1, .f32⟩
  | .local _ .vmem, ⟨19, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S1x256_S256x1_1_0 : S1x256.Transposes [1, 0] S256x1
  shapeCasts_S1_S1x1 : S1.ShapeCasts S1x1
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S50000x1_S50000 : S50000x1.ShapeCasts S50000
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S50000x1.size a
  hwx1_7 : ∀ i : grid1.Coords, EltTy.bits .f32 = 32 ∨ (Rect.block (s := S50000x1) S2000x1.size (cc1_transform_7 i) (hinb1_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S2000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S256x256 : Shape := ⟨2, ![256, 256]⟩
abbrev S1x256 : Shape := ⟨2, ![1, 256]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S800000x256 : Shape := ⟨2, ![800000, 256]⟩
abbrev S256x1 : Shape := ⟨2, ![256, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x256, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S128x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S128x256, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x256, .f32⟩
  | .hbm, ⟨76, _⟩ => ⟨S50000x256, .f32⟩
  | .hbm, ⟨77, _⟩ => ⟨S256x256, .f32⟩
  | .hbm, ⟨78, _⟩ => ⟨S50000x256, .f32⟩
  | .hbm, ⟨79, _⟩ => ⟨S1x256, .f32⟩
  | .hbm, ⟨80, _⟩ => ⟨S50000x256, .f32⟩
  | .hbm, ⟨81, _⟩ => ⟨S50000x256, .f32⟩
  | .hbm, ⟨82, _⟩ => ⟨S256x256, .f32⟩
  | .hbm, ⟨83, _⟩ => ⟨S50000x256, .f32⟩
  | .hbm, ⟨84, _⟩ => ⟨S50000x256, .f32⟩
  | .hbm, ⟨85, _⟩ => ⟨S_, .f32⟩
  | .hbm, ⟨86, _⟩ => ⟨S50000x256, .f32⟩
  | .hbm, ⟨87, _⟩ => ⟨S50000x256, .f32⟩
  | .hbm, ⟨88, _⟩ => ⟨S256x1, .f32⟩
  | .hbm, ⟨89, _⟩ => ⟨S50000x1, .f32⟩
  | .hbm, ⟨90, _⟩ => ⟨S1x1, .f32⟩
  | .hbm, ⟨91, _⟩ => ⟨S50000x1, .f32⟩
  | .hbm, ⟨92, _⟩ => ⟨S50000x1, .f32⟩
  | .hbm, ⟨93, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_call2_v0 : Ref sig .tc := ⟨.hbm, 71, rfl⟩
abbrev main_call2_v1 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call3_cst : Ref sig .tc := ⟨.hbm, 85, rfl⟩
abbrev main_call3_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  transposes_S1x256_S256x1_1_0 : S1x256.Transposes [1, 0] S256x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x1_S50000x1_1_0_0_1_n_n_wf : DotDims.WF S50000x256 S256x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KernelHost.lean ====
/-
  The kernel program's host side, read back as whole-array terms of the argument arrays.

  Before the first launch the program slices the edge list into sources and destinations, counts each node's
  in-degree by an accumulating scatter of ones, takes the reciprocal of the degree clipped below by one, gathers the
  source rows, scatter-adds them at the destinations and scales each row by its node's reciprocal; it transposes the
  weights and reshapes the bias. Between the launches it does the same aggregation on the first layer's output.
  After the second launch it reshapes the output column to a vector. Each buffer a launch reads, and the result
  buffer, is stated here as that term, with the shared pieces (sources, destinations, degree, aggregated sums,
  transposes) written as the reference program's own stages, which are the same operations on the same arguments.
-/
import proofs.«405419_j16372415332826_3_alg».proof.Proof.Gen.KernelIdeal.Frame
import proofs.«405419_j16372415332826_3_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## The argument arrays at their literal types -/

abbrev a0 (c : Dev nD) : (⟨S50000x128, .f32⟩ : BufTy).Contents (Elt F) := m ((c : Thread nD τ).loc main_arg0)
abbrev a1 (c : Dev nD) : (⟨S2x800000, .i32⟩ : BufTy).Contents (Elt F) := m ((c : Thread nD τ).loc main_arg1)
abbrev a2 (c : Dev nD) : (⟨S256x128, .f32⟩ : BufTy).Contents (Elt F) := m ((c : Thread nD τ).loc main_arg2)
abbrev a3 (c : Dev nD) : (⟨S256, .f32⟩ : BufTy).Contents (Elt F) := m ((c : Thread nD τ).loc main_arg3)
abbrev a4 (c : Dev nD) : (⟨S256x128, .f32⟩ : BufTy).Contents (Elt F) := m ((c : Thread nD τ).loc main_arg4)
abbrev a5 (c : Dev nD) : (⟨S256x256, .f32⟩ : BufTy).Contents (Elt F) := m ((c : Thread nD τ).loc main_arg5)
abbrev a6 (c : Dev nD) : (⟨S256, .f32⟩ : BufTy).Contents (Elt F) := m ((c : Thread nD τ).loc main_arg6)
abbrev a7 (c : Dev nD) : (⟨S256x256, .f32⟩ : BufTy).Contents (Elt F) := m ((c : Thread nD τ).loc main_arg7)
abbrev a8 (c : Dev nD) : (⟨S1x256, .f32⟩ : BufTy).Contents (Elt F) := m ((c : Thread nD τ).loc main_arg8)
abbrev a9 (c : Dev nD) : (⟨S1, .f32⟩ : BufTy).Contents (Elt F) := m ((c : Thread nD τ).loc main_arg9)

/-! ## The two pieces the kernel's host side does not share with the reference -/

/-- The reciprocal of the degree clipped below by one, as a column: one over the maximum of one and the degree. -/
def recipCol (d : (⟨S50000, .f32⟩ : BufTy).Contents (Elt F)) : (⟨S50000x1, .f32⟩ : BufTy).Contents (Elt F) :=
  Host.divf (broadcastInDim S50000x1 ![] bcast_S_S50000x1 (constant S_ .f32 0x3F800000#32))
    (maximumf (broadcastInDim S50000x1 ![] bcast_S_S50000x1 (id (constant S_ .f32 0x3F800000#32)))
      (shapeCast _ d shapeCasts_S50000_S50000x1))

/-- The second aggregation as a function of the hidden array it gathers from: the source rows of `h` summed at
    their destinations. -/
def agg2 (h : (⟨S50000x256, .f32⟩ : BufTy).Contents (Elt F)) (x1 : (⟨S2x800000, .i32⟩ : BufTy).Contents (Elt F)) :
    (⟨S50000x256, .f32⟩ : BufTy).Contents (Elt F) :=
  Host.scatterAdd Cert.ReferenceIdeal.scatter_S50000x256_S800000x1_S800000x256_1_0_0_1 (Cert.ReferenceIdeal.Read.val_main_v38 (F := F)) (Cert.ReferenceIdeal.Read.val_main_v39 (F := F) x1)
    (Host.gather Cert.ReferenceIdeal.gather_S50000x256_S800000x1_S800000x256_1_0_n_n_0_1_1256 h (Cert.ReferenceIdeal.Read.val_main_v36 (F := F) x1))

/-- The reference's second aggregated sum is this function of its first layer's output. -/
theorem ref_v40_eq (x0 : (⟨S50000x128, .f32⟩ : BufTy).Contents (Elt F)) (x1 : (⟨S2x800000, .i32⟩ : BufTy).Contents (Elt F))
    (x2 : (⟨S256x128, .f32⟩ : BufTy).Contents (Elt F)) (x3 : (⟨S256, .f32⟩ : BufTy).Contents (Elt F)) (x4 : (⟨S256x128, .f32⟩ : BufTy).Contents (Elt F)) :
    Cert.ReferenceIdeal.Read.val_main_v40 (F := F) x0 x1 x2 x3 x4 = agg2 (Cert.ReferenceIdeal.Read.val_main_v30 (F := F) x0 x1 x2 x3 x4) x1 := rfl

/-! ## Buffers at the first launch -/

theorem w3_v1 (c : Dev nD) : W3 m ρ c (Proc.devRef .tc main_v1) = Cert.ReferenceIdeal.Read.val_main_v1 (F := F) (a1 m c) := by
  dsimp only [W3, W2, W1, hostOps0_2, hostOps0_1, hostOps0]
  after_results
  rfl

theorem w3_v3 (c : Dev nD) : W3 m ρ c (Proc.devRef .tc main_v3) = Cert.ReferenceIdeal.Read.val_main_v3 (F := F) (a1 m c) := by
  dsimp only [W3, W2, W1, hostOps0_2, hostOps0_1, hostOps0]
  after_results
  rfl

theorem w3_v11 (c : Dev nD) : W3 m ρ c (Proc.devRef .tc main_v11) = recipCol (Cert.ReferenceIdeal.Read.val_main_v17 (F := F) (a1 m c)) := by
  dsimp only [W3, W2, W1, hostOps0_2, hostOps0_1, hostOps0]
  after_results
  rfl

theorem w3_arg5 (c : Dev nD) : W3 m ρ c (Proc.devRef .tc main_arg5) = a5 m c := by
  dsimp only [W3, W2, W1, hostOps0_2, hostOps0_1, hostOps0]
  after_results
theorem w3_arg6 (c : Dev nD) : W3 m ρ c (Proc.devRef .tc main_arg6) = a6 m c := by
  dsimp only [W3, W2, W1, hostOps0_2, hostOps0_1, hostOps0]
  after_results
theorem w3_arg7 (c : Dev nD) : W3 m ρ c (Proc.devRef .tc main_arg7) = a7 m c := by
  dsimp only [W3, W2, W1, hostOps0_2, hostOps0_1, hostOps0]
  after_results
theorem w3_arg8 (c : Dev nD) : W3 m ρ c (Proc.devRef .tc main_arg8) = a8 m c := by
  dsimp only [W3, W2, W1, hostOps0_2, hostOps0_1, hostOps0]
  after_results
theorem w3_arg9 (c : Dev nD) : W3 m ρ c (Proc.devRef .tc main_arg9) = a9 m c := by
  dsimp only [W3, W2, W1, hostOps0_2, hostOps0_1, hostOps0]
  after_results

set_option maxHeartbeats 4000000 in
/-- The first launch's mean operand: the aggregated sum times the reciprocal column broadcast along the rows. -/
theorem v23_eq (c : Dev nD) : V3 m ρ c main_v23
    = mulf (Cert.ReferenceIdeal.Read.val_main_v13 (F := F) (a0 m c) (a1 m c))
        (broadcastInDim S50000x128 ![0, 1] bcast_S50000x1_S50000x128_0_1 (recipCol (Cert.ReferenceIdeal.Read.val_main_v17 (F := F) (a1 m c)))) := by
  show W3 m ρ c (Proc.devRef .tc main_v23) = _
  dsimp only [W3, W2, W1, hostOps0_2, hostOps0_1, hostOps0]
  after_results_simp
  rfl

theorem v24_eq (c : Dev nD) : V3 m ρ c main_v24 = Cert.ReferenceIdeal.Read.val_main_v22 (F := F) (a2 m c) := by
  show W3 m ρ c (Proc.devRef .tc main_v24) = _
  dsimp only [W3, W2, W1, hostOps0_2, hostOps0_1, hostOps0]
  after_results
  rfl

theorem v25_eq (c : Dev nD) : V3 m ρ c main_v25 = Cert.ReferenceIdeal.Read.val_main_v27 (F := F) (a4 m c) := by
  show W3 m ρ c (Proc.devRef .tc main_v25) = _
  dsimp only [W3, W2, W1, hostOps0_2, hostOps0_1, hostOps0]
  after_results
  rfl

theorem v26_eq (c : Dev nD) : V3 m ρ c main_v26 = shapeCast _ (a3 m c) shapeCasts_S256_S1x256 := by
  show W3 m ρ c (Proc.devRef .tc main_v26) = _
  dsimp only [W3, W2, W1, hostOps0_2, hostOps0_1, hostOps0]
  after_results
  rfl

theorem arg0_eq (c : Dev nD) : V3 m ρ c main_arg0 = a0 m c := by
  show W3 m ρ c (Proc.devRef .tc main_arg0) = _
  dsimp only [W3, W2, W1, hostOps0_2, hostOps0_1, hostOps0]
  after_results

/-! ## Buffers at the second launch -/

/-- The first launch's output array, as the first region leaves it. -/
abbrev hid (c : Dev nD) : (⟨S50000x256, .f32⟩ : BufTy).Contents (Elt F) := (dat0 (V3 m ρ) c).arrAt 5 cfg0.N

theorem w4_v27 (c : Dev nD) : W4 m ρ c (Proc.devRef .tc main_v27) = hid m ρ c := W4_arr m ρ c 5

theorem v27_eq (c : Dev nD) : V5 m ρ c main_v27 = hid m ρ c := by
  show W5 m ρ c (Proc.devRef .tc main_v27) = _
  dsimp only [W5, hostOps1]
  after_results
  exact w4_v27 m ρ c

set_option maxHeartbeats 4000000 in
/-- The second launch's mean operand: the second aggregated sum times the same reciprocal column. -/
theorem v39_eq (c : Dev nD) : V5 m ρ c main_v39
    = mulf (agg2 (hid m ρ c) (a1 m c))
        (broadcastInDim S50000x256 ![0, 1] bcast_S50000x1_S50000x256_0_1 (recipCol (Cert.ReferenceIdeal.Read.val_main_v17 (F := F) (a1 m c)))) := by
  show W5 m ρ c (Proc.devRef .tc main_v39) = _
  dsimp only [W5, hostOps1]
  after_results_simp
  rw [w4_v27, W4_of_ne m ρ c main_v1 (by decide), W4_of_ne m ρ c main_v3 (by decide), W4_of_ne m ρ c main_v11 (by decide),
    w3_v1, w3_v3, w3_v11]
  rfl

theorem v40_eq (c : Dev nD) : V5 m ρ c main_v40 = Cert.ReferenceIdeal.Read.val_main_v49 (F := F) (a5 m c) := by
  show W5 m ρ c (Proc.devRef .tc main_v40) = _
  dsimp only [W5, hostOps1]
  after_results
  rw [W4_of_ne m ρ c main_arg5 (by decide), w3_arg5]
  rfl

theorem v41_eq (c : Dev nD) : V5 m ρ c main_v41 = Cert.ReferenceIdeal.Read.val_main_v54 (F := F) (a7 m c) := by
  show W5 m ρ c (Proc.devRef .tc main_v41) = _
  dsimp only [W5, hostOps1]
  after_results
  rw [W4_of_ne m ρ c main_arg7 (by decide), w3_arg7]
  rfl

theorem v42_eq (c : Dev nD) : V5 m ρ c main_v42 = Cert.ReferenceIdeal.Read.val_main_v58 (F := F) (a8 m c) := by
  show W5 m ρ c (Proc.devRef .tc main_v42) = _
  dsimp only [W5, hostOps1]
  after_results
  rw [W4_of_ne m ρ c main_arg8 (by decide), w3_arg8]
  rfl

theorem v43_eq (c : Dev nD) : V5 m ρ c main_v43 = shapeCast _ (a6 m c) shapeCasts_S256_S1x256 := by
  show W5 m ρ c (Proc.devRef .tc main_v43) = _
  dsimp only [W5, hostOps1]
  after_results
  rw [W4_of_ne m ρ c main_arg6 (by decide), w3_arg6]
  rfl

theorem v44_eq (c : Dev nD) : V5 m ρ c main_v44 = shapeCast _ (a9 m c) shapeCasts_S1_S1x1 := by
  show W5 m ρ c (Proc.devRef .tc main_v44) = _
  dsimp only [W5, hostOps1]
  after_results
  rw [W4_of_ne m ρ c main_arg9 (by decide), w3_arg9]
  rfl

/-! ## The result buffer -/

/-- The second launch's output column, as the second region leaves it. -/
abbrev outCol (c : Dev nD) : (⟨S50000x1, .f32⟩ : BufTy).Contents (Elt F) := (dat1 (V5 m ρ) c).arrAt 7 cfg1.N

/-- The result is the output column reshaped to a vector. -/
theorem v46_eq (c : Dev nD) : W7 m ρ c (Proc.devRef .tc main_v46) = shapeCast _ (outCol m ρ c) shapeCasts_S50000x1_S50000 := by
  dsimp only [W7, hostOps2]
  after_results
  rw [show W6 m ρ c (Proc.devRef .tc main_v45) = outCol m ρ c from W6_arr m ρ c 7]
  rfl

end Cert.KernelIdeal.Host

end
-- ==== Proof.Spec.lean ====
/-
  One graph-convolution layer, one output entry at a time, on the extended reals.

  A node's new feature `q` is `max (⟨a, wl⟩ + b + ⟨x, wr⟩) 0`: `a` the node's row of neighbour means, `x` its own
  row of features, `wl` and `wr` the two weight columns of feature `q`, `b` the bias entry. The regression head is
  one more inner product plus its bias. Both programs compute exactly these entries; they differ only in how the
  neighbour mean is taken: a sum divided by the clipped degree, against the same sum multiplied by the reciprocal of
  the clipped degree. On the extended reals the two agree at every value of the sum, the infinities included,
  because the clipped degree is at least one and so is never zero (`mul_recip_clip`).
-/
import Idealize.ShloMosaic.PureOps.Ideal
import Idealize.ShloMosaic.Lib.ValueIdx

noncomputable section

open scoped BigOperators

namespace Cert.Sage

open Idealize.ShloMosaic

/-- One entry of a layer's dense part: the two inner products, the bias, then the rectifier. -/
def denseAt {K : Nat} (a x wl wr : Fin K → EReal) (b : EReal) : EReal :=
  max ((∑ k : Fin K, a k * wl k) + b + ∑ k : Fin K, x k * wr k) 0

/-- One entry of the regression head: an inner product plus the bias. -/
def headAt {K : Nat} (h w : Fin K → EReal) (b : EReal) : EReal :=
  (∑ k : Fin K, h k * w k) + b

/-- A quantity clipped below by one is not zero. -/
theorem clip_ne_zero (d : EReal) : max (1 : EReal) d ≠ 0 := by
  have h : (0 : EReal) < max 1 d := lt_of_lt_of_le zero_lt_one (le_max_left _ _)
  exact ne_of_gt h

/-- Multiplying by the reciprocal of a clipped degree is dividing by it, whatever the numerator: the divisor is
    not zero, so both sides are the numerator times the divisor's inverse. -/
theorem mul_recip_clip (a d : EReal) : a * Ideal.div 1 (max 1 d) = Ideal.div a (max 1 d) := by
  unfold Ideal.div
  rw [if_neg (clip_ne_zero d), if_neg (clip_ne_zero d), one_mul]

end Cert.Sage

end
-- ==== Proof.Layer1.lean ====
/-
  The first layer's kernel, read as values at the extended reals.

  At a grid point the body stores, into the output block, the entrywise maximum with zero of
  (mean block) · Wl + bias row + (feature block) · Wr, the two products taken over the 128 input features. Read at
  entry (p, q) of the block this is `denseAt` of row p of the two blocks and column q of the two weight matrices
  (`pay_apply`). Grid point t owns rows 2000·t … 2000·t + 1999 of the output array and reads the same rows of the
  mean and feature arrays; the weight and bias windows are the whole arrays at every point. The 25 blocks tile the
  50000 rows, so after the region entry (p, q) of the output array is `denseAt` of row p of the mean and feature
  arrays as the region found them (`arr_apply`).
-/
import proofs.«405419_j16372415332826_3_alg».proof.Proof.Gen.KernelIdeal.Frame
import proofs.«405419_j16372415332826_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.ValueIdx Cert.Sage
open Idealize.ShloMosaic.TcCoe
open Idealize.ShloMosaic.Pipeline (Dat)

variable (V : (c : Dev nD) → (b : Ref sig .tc) → Buf (Elt Ideal) ((c : Thread nD τ).loc b))

abbrev meanA (c : Dev nD) : Vec Ideal S50000x128 .f32 := V c main_v23
abbrev featA (c : Dev nD) : Vec Ideal S50000x128 .f32 := V c main_arg0
abbrev wlA (c : Dev nD) : Vec Ideal S128x256 .f32 := V c main_v24
abbrev biasA (c : Dev nD) : Vec Ideal S1x256 .f32 := V c main_v26
abbrev wrA (c : Dev nD) : Vec Ideal S128x256 .f32 := V c main_v25
abbrev outA (c : Dev nD) : Vec Ideal S50000x256 .f32 := (dat0 (F := Ideal) V c).arrAt 5 cfg0.N

/-! ## The body's payload at an entry -/

/-- The left operand of the product is read at the output's row … -/
theorem lhs_row (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and at the summation index; -/
theorem lhs_col (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- the right operand at the summation index … -/
theorem rhs_row (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- … and at the output's column. -/
theorem rhs_col (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block product accumulated into zero, read at entry (p, q): the inner product of row p of the left block with
    column q of the right one. -/
theorem prod_apply (l : FVec Ideal S2000x128 .bf16) (r : FVec Ideal S128x256 .bf16) (p : Fin 2000) (q : Fin 256) :
    matmul dot_S2000x128_S128x256_S2000x256_1_0_0_1_n_n none l r (constant (F := Ideal) S2000x256 .f32 0x00000000#32) (ix2 p q)
      = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  rw [el, er]

theorem pay_apply (a x : Vec Ideal S2000x128 .f32) (wl wr : Vec Ideal S128x256 .f32) (b : Vec Ideal S1x256 .f32)
    (p : Fin 2000) (q : Fin 256) :
    k0_pay1 (F := Ideal) a x wl wr b (ix2 p q)
      = denseAt (fun k : Fin 128 => a (ix2 p k)) (fun k => x (ix2 p k)) (fun k => wl (ix2 k q)) (fun k => wr (ix2 k q)) (b (ix2 0 q)) := by
  unfold k0_pay1
  simp only [shapeCast_self]
  show max (matmul dot_S2000x128_S128x256_S2000x256_1_0_0_1_n_n none (truncf .bf16 a bitsLt_bf16_f32) (truncf .bf16 wl bitsLt_bf16_f32) (constant (F := Ideal) S2000x256 .f32 0x00000000#32) (ix2 p q)
      + broadcastTo S2000x256 b broadcasts_S1x256_S2000x256 (ix2 p q)
      + matmul dot_S2000x128_S128x256_S2000x256_1_0_0_1_n_n none (truncf .bf16 x bitsLt_bf16_f32) (truncf .bf16 wr bitsLt_bf16_f32) (constant (F := Ideal) S2000x256 .f32 0x00000000#32) (ix2 p q))
      (Ideal.ofBits .f32 0x00000000#32) = _
  rw [prod_apply, prod_apply, broadcastTo_1b_ab_apply, Ideal.ofBits_zero_f32]
  rfl

/-! ## From the blocks to the output array -/

/-- The row of an entry of the output array, as a number below 50000 … -/
def rowOf (i : S50000x256.Idx) : Fin 50000 := ⟨(i 0).val, (i 0).isLt⟩
/-- … and its column, as a number below 256. -/
def colOf (i : S50000x256.Idx) : Fin 256 := ⟨(i 1).val, (i 1).isLt⟩

/-- What the output array ends holding: at every entry the dense part of its row of the mean and feature arrays and its
    column of the two weight matrices. -/
def G (c : Dev nD) : S50000x256.Idx → Elt Ideal .f32 := fun i =>
  denseAt (fun k : Fin 128 => meanA V c (ix2 (rowOf i) k)) (fun k => featA V c (ix2 (rowOf i) k))
    (fun k => wlA V c (ix2 k (colOf i))) (fun k => wrA V c (ix2 k (colOf i))) (biasA V c (ix2 0 (colOf i)))

theorem zero_off : (![0, 0] : Fin 2 → Nat) = fun _ => 0 := funext fun a => by fin_cases a <;> rfl

/-- The printed index maps, decided over the 25 grid points: the mean, feature and output windows are at block row t,
    block column 0; the weight and bias windows are at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of the mean block at point t is entry (row, k) of the mean array, row the array row of the output
    block's entry (p, q). -/
theorem blk_mean (c : Dev nD) (t : Fin cfg0.N) (p : Fin 2000) (q : Fin 256) (k : Fin 128) :
    iblk0 V c 0 t (ix2 p k) = meanA V c (ix2 (rowOf (((cfg0.win 5).blk t).view.emb (ix2 p q))) k) := by
  obtain ⟨e00, e01, e10, e11, e20, e21, e30, e31, e40, e41, e50, e51⟩ := idx_facts t
  show V c main_v23 (((cfg0.win 0).blk t).view.emb (ix2 p k)) = V c main_v23 (ix2 (rowOf (((cfg0.win 5).blk t).view.emb (ix2 p q))) k)
  refine congrArg _ (funext fun a => Fin.ext ?_)
  match a with
  | ⟨0, _⟩ => show win0_0.index t (0 : Fin 2) * 2000 + 1 * p.val = win0_5.index t (0 : Fin 2) * 2000 + 1 * p.val; omega
  | ⟨1, _⟩ => show win0_0.index t (1 : Fin 2) * 128 + 1 * k.val = k.val; omega

/-- The same for the feature block. -/
theorem blk_feat (c : Dev nD) (t : Fin cfg0.N) (p : Fin 2000) (q : Fin 256) (k : Fin 128) :
    iblk0 V c 1 t (ix2 p k) = featA V c (ix2 (rowOf (((cfg0.win 5).blk t).view.emb (ix2 p q))) k) := by
  obtain ⟨e00, e01, e10, e11, e20, e21, e30, e31, e40, e41, e50, e51⟩ := idx_facts t
  show V c main_arg0 (((cfg0.win 1).blk t).view.emb (ix2 p k)) = V c main_arg0 (ix2 (rowOf (((cfg0.win 5).blk t).view.emb (ix2 p q))) k)
  refine congrArg _ (funext fun a => Fin.ext ?_)
  match a with
  | ⟨0, _⟩ => show win0_1.index t (0 : Fin 2) * 2000 + 1 * p.val = win0_5.index t (0 : Fin 2) * 2000 + 1 * p.val; omega
  | ⟨1, _⟩ => show win0_1.index t (1 : Fin 2) * 128 + 1 * k.val = k.val; omega

/-- Entry (k, q) of the first weight block at any point is entry (k, column) of the first weight matrix, column the
    array column of the output block's entry (p, q). -/
theorem blk_wl (c : Dev nD) (t : Fin cfg0.N) (p : Fin 2000) (q : Fin 256) (k : Fin 128) :
    iblk0 V c 2 t (ix2 k q) = wlA V c (ix2 k (colOf (((cfg0.win 5).blk t).view.emb (ix2 p q)))) := by
  obtain ⟨e00, e01, e10, e11, e20, e21, e30, e31, e40, e41, e50, e51⟩ := idx_facts t
  show V c main_v24 (((cfg0.win 2).blk t).view.emb (ix2 k q)) = V c main_v24 (ix2 k (colOf (((cfg0.win 5).blk t).view.emb (ix2 p q))))
  refine congrArg _ (funext fun a => Fin.ext ?_)
  match a with
  | ⟨0, _⟩ => show win0_2.index t (0 : Fin 2) * 128 + 1 * k.val = k.val; omega
  | ⟨1, _⟩ => show win0_2.index t (1 : Fin 2) * 256 + 1 * q.val = win0_5.index t (1 : Fin 2) * 256 + 1 * q.val; omega

/-- The same for the second weight block. -/
theorem blk_wr (c : Dev nD) (t : Fin cfg0.N) (p : Fin 2000) (q : Fin 256) (k : Fin 128) :
    iblk0 V c 4 t (ix2 k q) = wrA V c (ix2 k (colOf (((cfg0.win 5).blk t).view.emb (ix2 p q)))) := by
  obtain ⟨e00, e01, e10, e11, e20, e21, e30, e31, e40, e41, e50, e51⟩ := idx_facts t
  show V c main_v25 (((cfg0.win 4).blk t).view.emb (ix2 k q)) = V c main_v25 (ix2 k (colOf (((cfg0.win 5).blk t).view.emb (ix2 p q))))
  refine congrArg _ (funext fun a => Fin.ext ?_)
  match a with
  | ⟨0, _⟩ => show win0_4.index t (0 : Fin 2) * 128 + 1 * k.val = k.val; omega
  | ⟨1, _⟩ => show win0_4.index t (1 : Fin 2) * 256 + 1 * q.val = win0_5.index t (1 : Fin 2) * 256 + 1 * q.val; omega

/-- Entry (0, q) of the bias block at any point is entry (0, column) of the bias row. -/
theorem blk_bias (c : Dev nD) (t : Fin cfg0.N) (p : Fin 2000) (q : Fin 256) :
    iblk0 V c 3 t (ix2 0 q) = biasA V c (ix2 0 (colOf (((cfg0.win 5).blk t).view.emb (ix2 p q)))) := by
  obtain ⟨e00, e01, e10, e11, e20, e21, e30, e31, e40, e41, e50, e51⟩ := idx_facts t
  show V c main_v26 (((cfg0.win 3).blk t).view.emb (ix2 0 q)) = V c main_v26 (ix2 0 (colOf (((cfg0.win 5).blk t).view.emb (ix2 p q))))
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * q.val = win0_5.index t (1 : Fin 2) * 256 + 1 * q.val; omega

/-- What point t writes back is block t of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero zero_off]
  simp only [View.ld_unit_zero (S := S2000x128) zero_off, View.ld_unit_zero (S := S128x256) zero_off, View.ld_unit_zero (S := S1x256) zero_off]
  refine funext fun (j : S2000x256.Idx) => ?_
  obtain ⟨p, q, rfl⟩ : ∃ (p : Fin 2000) (q : Fin 256), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = G V c (((cfg0.win 5).blk t).view.emb (ix2 p q))
  refine (pay_apply (iblk0 V c 0 t) (iblk0 V c 1 t) (iblk0 V c 2 t) (iblk0 V c 4 t) (iblk0 V c 3 t) p q).trans ?_
  unfold G
  simp only [blk_mean V c t p q, blk_feat V c t p q, blk_wl V c t p q, blk_wr V c t p q, blk_bias V c t p q]

/-- An entry of the output array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v27).slice (win0_5.rect t)).set ↔ _
  rw [View.set_slice_whole, Rect.mem_set_unit]
  exact Iff.rfl

/-- The 25 blocks tile the array: row r is in the block of point r / 2000. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 2000 := ⟨⟨(i 0).val / 2000, by show _ < 25; omega⟩, rfl⟩
  obtain ⟨e00, e01, e10, e11, e20, e21, e30, e31, e40, e41, e50, e51⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The output array after the region is `G`. -/
theorem final (c : Dev nD) : outA V c = G V c :=
  (dat0 (F := Ideal) V c).arrAt_eq_of_cover 5 (G V c) (fun t _ => flushed_eq V c t) cover

theorem arr_apply (c : Dev nD) (p : Fin 50000) (q : Fin 256) :
    outA V c (ix2 p q)
      = denseAt (fun k : Fin 128 => meanA V c (ix2 p k)) (fun k => featA V c (ix2 p k)) (fun k => wlA V c (ix2 k q))
          (fun k => wrA V c (ix2 k q)) (biasA V c (ix2 0 q)) := by
  rw [final]
  rfl

end Cert.KernelIdeal.Layer1

end
-- ==== Proof.Layer2.lean ====
/-
  The second layer's kernel with the regression head, read as values at the extended reals.

  At a grid point the body forms the hidden block max ((mean block) · Wl + bias row + (hidden-input block) · Wr, 0)
  over the 256 hidden features and stores its product with the head's weight column plus the head's bias: entry
  (p, 0) of the stored block is `headAt` of the row of `denseAt` entries of row p (`pay_apply`). Grid point t owns
  rows 2000·t … 2000·t + 1999 of the output column and reads the same rows of the two row-blocked inputs; the other
  windows are whole arrays at every point. The 25 blocks tile the 50000 rows, so after the region entry (p, 0) of
  the output array is that expression of row p of the arrays as the region found them (`arr_apply`).
-/
import proofs.«405419_j16372415332826_3_alg».proof.Proof.Gen.KernelIdeal.Frame
import proofs.«405419_j16372415332826_3_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Layer2

open Cert.KernelIdeal Cert.KernelIdeal.Gen Idealize.ShloMosaic Idealize.ShloMosaic.ValueIdx Cert.Sage
open Idealize.ShloMosaic.TcCoe
open Idealize.ShloMosaic.Pipeline (Dat)

variable (V : (c : Dev nD) → (b : Ref sig .tc) → Buf (Elt Ideal) ((c : Thread nD τ).loc b))

abbrev meanA (c : Dev nD) : Vec Ideal S50000x256 .f32 := V c main_v39
abbrev hidA (c : Dev nD) : Vec Ideal S50000x256 .f32 := V c main_v27
abbrev wlA (c : Dev nD) : Vec Ideal S256x256 .f32 := V c main_v40
abbrev biasA (c : Dev nD) : Vec Ideal S1x256 .f32 := V c main_v43
abbrev wrA (c : Dev nD) : Vec Ideal S256x256 .f32 := V c main_v41
abbrev hwA (c : Dev nD) : Vec Ideal S256x1 .f32 := V c main_v42
abbrev hbA (c : Dev nD) : Vec Ideal S1x1 .f32 := V c main_v44
abbrev outA (c : Dev nD) : Vec Ideal S50000x1 .f32 := (dat1 (F := Ideal) V c).arrAt 7 cfg1.N

/-! ## The two contractions at an index -/

/-- The hidden product's left operand index keeps the output's row. -/
theorem lhsD_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Its column is the contraction coordinate. -/
theorem lhsD_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's row is the contraction coordinate. -/
theorem rhsD_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- Its column is the output's column. -/
theorem rhsD_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A 2000×256 by 256×256 product into the zero block, at entry (p, k): the inner product of row p and column k. -/
theorem hidden_matmul_apply (x : FVec Ideal S2000x256 .bf16) (w : FVec Ideal S256x256 .bf16) (p : Fin 2000) (k : Fin 256) :
    matmul dot_S2000x256_S256x256_S2000x256_1_0_0_1_n_n none x w (constant (F := Ideal) S2000x256 .f32 0x00000000#32) (ix2 p k)
      = ∑ j : Fin 256, x (ix2 p j) * w (ix2 j k) := by
  simp only [matmul]
  rw [Ideal.matmul_constant_zero_apply, ← Equiv.sum_comp (contrEquiv1 dot_S2000x256_S256x256_S2000x256_1_0_0_1_n_n 256 rfl rfl).symm]
  refine Finset.sum_congr rfl fun j _ => ?_
  have hj := contrEquiv1_symm_val dot_S2000x256_S256x256_S2000x256_1_0_0_1_n_n 256 rfl rfl j
  have el : dot_S2000x256_S256x256_S2000x256_1_0_0_1_n_n.lhsIdx (ix2 p k) ((contrEquiv1 dot_S2000x256_S256x256_S2000x256_1_0_0_1_n_n 256 rfl rfl).symm j) = ix2 p j := funext fun a => Fin.ext (by
    match a with
    | ⟨0, _⟩ => exact lhsD_0 _ _
    | ⟨1, _⟩ => exact (lhsD_1 _ _).trans hj)
  have er : dot_S2000x256_S256x256_S2000x256_1_0_0_1_n_n.rhsIdx (ix2 p k) ((contrEquiv1 dot_S2000x256_S256x256_S2000x256_1_0_0_1_n_n 256 rfl rfl).symm j) = ix2 j k := funext fun a => Fin.ext (by
    match a with
    | ⟨0, _⟩ => exact (rhsD_0 _ _).trans hj
    | ⟨1, _⟩ => exact rhsD_1 _ _)
  rw [el, er]

/-- The head product's left operand index keeps the output's row. -/
theorem lhsH_0 (i : S2000x1.Idx) (q : dot_S2000x256_S256x1_S2000x1_1_0_0_1_n_n.contr.Idx) :
    (dot_S2000x256_S256x1_S2000x1_1_0_0_1_n_n.lhsIdx i q 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
/-- Its column is the contraction coordinate. -/
theorem lhsH_1 (i : S2000x1.Idx) (q : dot_S2000x256_S256x1_S2000x1_1_0_0_1_n_n.contr.Idx) :
    (dot_S2000x256_S256x1_S2000x1_1_0_0_1_n_n.lhsIdx i q 1).val = (q ⟨0, by decide⟩).val :=
  dot_S2000x256_S256x1_S2000x1_1_0_0_1_n_n.lhsIdx_val_of_single rfl i q
/-- The right operand's row is the contraction coordinate. -/
theorem rhsH_0 (i : S2000x1.Idx) (q : dot_S2000x256_S256x1_S2000x1_1_0_0_1_n_n.contr.Idx) :
    (dot_S2000x256_S256x1_S2000x1_1_0_0_1_n_n.rhsIdx i q 0).val = (q ⟨0, by decide⟩).val :=
  dot_S2000x256_S256x1_S2000x1_1_0_0_1_n_n.rhsIdx_val_of_single rfl i q
/-- Its column is the output's column. -/
theorem rhsH_1 (i : S2000x1.Idx) (q : dot_S2000x256_S256x1_S2000x1_1_0_0_1_n_n.contr.Idx) :
    (dot_S2000x256_S256x1_S2000x1_1_0_0_1_n_n.rhsIdx i q 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- A 2000×256 by 256×1 product into the zero column, at entry (p, 0): the inner product of row p and the column. -/
theorem head_matmul_apply (x : FVec Ideal S2000x256 .bf16) (w : FVec Ideal S256x1 .bf16) (p : Fin 2000) :
    matmul dot_S2000x256_S256x1_S2000x1_1_0_0_1_n_n none x w (constant (F := Ideal) S2000x1 .f32 0x00000000#32) (ix2 p 0)
      = ∑ j : Fin 256, x (ix2 p j) * w (ix2 j 0) := by
  simp only [matmul]
  rw [Ideal.matmul_constant_zero_apply, ← Equiv.sum_comp (contrEquiv1 dot_S2000x256_S256x1_S2000x1_1_0_0_1_n_n 256 rfl rfl).symm]
  refine Finset.sum_congr rfl fun j _ => ?_
  have hj := contrEquiv1_symm_val dot_S2000x256_S256x1_S2000x1_1_0_0_1_n_n 256 rfl rfl j
  have el : dot_S2000x256_S256x1_S2000x1_1_0_0_1_n_n.lhsIdx (ix2 p 0) ((contrEquiv1 dot_S2000x256_S256x1_S2000x1_1_0_0_1_n_n 256 rfl rfl).symm j) = ix2 p j := funext fun a => Fin.ext (by
    match a with
    | ⟨0, _⟩ => exact lhsH_0 _ _
    | ⟨1, _⟩ => exact (lhsH_1 _ _).trans hj)
  have er : dot_S2000x256_S256x1_S2000x1_1_0_0_1_n_n.rhsIdx (ix2 p 0) ((contrEquiv1 dot_S2000x256_S256x1_S2000x1_1_0_0_1_n_n 256 rfl rfl).symm j) = ix2 j 0 := funext fun a => Fin.ext (by
    match a with
    | ⟨0, _⟩ => exact (rhsH_0 _ _).trans hj
    | ⟨1, _⟩ => exact rhsH_1 _ _)
  rw [el, er]

/-! ## The body's stored block at an index -/

/-- The hidden block, entry (p, k): the two inner products of row p with column k of the two weight matrices, the
    bias row's entry k between them, cut below at zero. (Narrowing to the short format is the identity at the
    extended reals; the zero block a product accumulates into and the rectifier's zero are the real zero.) -/
theorem hidden_apply (a h : Vec Ideal S2000x256 .f32) (wl wr : Vec Ideal S256x256 .f32) (b : Vec Ideal S1x256 .f32)
    (p : Fin 2000) (k : Fin 256) :
    (maximumf (addf (addf (matmul dot_S2000x256_S256x256_S2000x256_1_0_0_1_n_n none
            (truncf .bf16 (a : FVec Ideal S2000x256 .f32) bitsLt_bf16_f32) (truncf .bf16 (wl : FVec Ideal S256x256 .f32) bitsLt_bf16_f32)
            (constant (F := Ideal) S2000x256 .f32 0x00000000#32))
          (broadcastTo S2000x256 (b : FVec Ideal S1x256 .f32) broadcasts_S1x256_S2000x256))
        (matmul dot_S2000x256_S256x256_S2000x256_1_0_0_1_n_n none
            (truncf .bf16 (h : FVec Ideal S2000x256 .f32) bitsLt_bf16_f32) (truncf .bf16 (wr : FVec Ideal S256x256 .f32) bitsLt_bf16_f32)
            (constant (F := Ideal) S2000x256 .f32 0x00000000#32)))
      (broadcast S2000x256 (Scalar.ofBits (F := Ideal) .f32 0x00000000#32)) : FVec Ideal S2000x256 .f32) (ix2 p k)
      = denseAt (fun j : Fin 256 => a (ix2 p j)) (fun j => h (ix2 p j)) (fun j => wl (ix2 j k)) (fun j => wr (ix2 j k)) (b (ix2 0 k)) := by
  refine (maximumf_apply _ _ _).trans ?_
  unfold denseAt
  refine congrArg₂ max ?_ Ideal.ofBits_zero_f32
  refine (addf_apply _ _ _).trans ?_
  refine congrArg₂ (· + ·) ?_ (hidden_matmul_apply _ _ p k)
  refine (addf_apply _ _ _).trans ?_
  refine congrArg₂ (· + ·) (hidden_matmul_apply _ _ p k) ?_
  refine broadcastTo_apply b broadcasts_S1x256_S2000x256 (ix2 p k) (ix2 0 k) (fun x => ?_)
  match x with
  | ⟨0, _⟩ => rfl
  | ⟨1, _⟩ => rfl

theorem pay_apply (a h : Vec Ideal S2000x256 .f32) (wl wr : Vec Ideal S256x256 .f32) (b : Vec Ideal S1x256 .f32)
    (hw : Vec Ideal S256x1 .f32) (hb : Vec Ideal S1x1 .f32) (p : Fin 2000) :
    k1_pay1 (F := Ideal) a h wl wr b hw hb (ix2 p 0)
      = headAt (fun k : Fin 256 => denseAt (fun j : Fin 256 => a (ix2 p j)) (fun j => h (ix2 p j)) (fun j => wl (ix2 j k))
          (fun j => wr (ix2 j k)) (b (ix2 0 k))) (fun k => hw (ix2 k 0)) (hb (ix2 0 0)) := by
  unfold k1_pay1
  simp only [shapeCast_self]
  refine (addf_apply _ _ _).trans ?_
  unfold headAt
  refine congrArg₂ (· + ·) ?_ ?_
  · refine (head_matmul_apply _ _ p).trans ?_
    refine Finset.sum_congr rfl fun k _ => ?_
    refine congrArg₂ (· * ·) ?_ rfl
    exact hidden_apply a h wl wr b p k
  · refine broadcastTo_apply hb broadcasts_S1x1_S2000x1 (ix2 p 0) (ix2 0 0) (fun x => ?_)
    match x with
    | ⟨0, _⟩ => rfl
    | ⟨1, _⟩ => rfl

/-! ## From the blocks to the output column -/

theorem zero_offsets : (![0, 0] : Fin 2 → Nat) = fun _ => 0 := funext fun a => by fin_cases a <;> rfl

/-- The printed index maps over the 25 grid points: the two row-blocked inputs and the output are at block row t,
    block column 0; the five whole-array windows are at block (0, 0). -/
theorem grid_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 ∧ t.val < 25 :=
  (by decide +kernel : ∀ t : Fin grid1.N, _)

/-- Every one of the 25 row blocks of the output is some point's. -/
theorem grid_onto : ∀ q : Fin 25, ∃ t : Fin cfg1.N, win1_7.index t = ![q.val, 0] :=
  (by decide +kernel : ∀ q : Fin 25, ∃ t : Fin grid1.N, win1_7.index t = ![q.val, 0])

/-- Point t's block of the neighbour means is rows 2000·t … of that array. -/
theorem mean_blk (c : Dev nD) (t : Fin cfg1.N) (y : S2000x256.Idx) (i : S50000x256.Idx)
    (h0 : (i 0).val = 2000 * t.val + (y 0).val) (h1 : (i 1).val = (y 1).val) :
    (iblk1 (F := Ideal) V c 0 t : Vec Ideal S2000x256 .f32) y = V c main_v39 i := by
  obtain ⟨e00, e01, e10, e11, -⟩ := grid_facts t
  unfold iblk1
  rw [View.read_apply]
  show V c main_v39 (((cfg1.win 0).blk t).view.emb y) = V c main_v39 i
  refine congrArg (V c main_v39) (funext fun a => Fin.ext ?_)
  match a with
  | ⟨0, _⟩ => show win1_0.index t (0 : Fin 2) * 2000 + 1 * (y 0).val = (i 0).val; omega
  | ⟨1, _⟩ => show win1_0.index t (1 : Fin 2) * 256 + 1 * (y 1).val = (i 1).val; omega

/-- Point t's block of the layer's own input is rows 2000·t … of that array. -/
theorem hid_blk (c : Dev nD) (t : Fin cfg1.N) (y : S2000x256.Idx) (i : S50000x256.Idx)
    (h0 : (i 0).val = 2000 * t.val + (y 0).val) (h1 : (i 1).val = (y 1).val) :
    (iblk1 (F := Ideal) V c 1 t : Vec Ideal S2000x256 .f32) y = V c main_v27 i := by
  obtain ⟨e00, e01, e10, e11, -⟩ := grid_facts t
  unfold iblk1
  rw [View.read_apply]
  show V c main_v27 (((cfg1.win 1).blk t).view.emb y) = V c main_v27 i
  refine congrArg (V c main_v27) (funext fun a => Fin.ext ?_)
  match a with
  | ⟨0, _⟩ => show win1_1.index t (0 : Fin 2) * 2000 + 1 * (y 0).val = (i 0).val; omega
  | ⟨1, _⟩ => show win1_1.index t (1 : Fin 2) * 256 + 1 * (y 1).val = (i 1).val; omega

/-- The first weight matrix's block is the whole matrix at every point. -/
theorem wl_blk (c : Dev nD) (t : Fin cfg1.N) (y : S256x256.Idx) :
    (iblk1 (F := Ideal) V c 2 t : Vec Ideal S256x256 .f32) y = V c main_v40 y := by
  obtain ⟨-, -, -, -, e20, e21, e30, e31, e40, e41, e50, e51, e60, e61, -, -, -⟩ := grid_facts t
  unfold iblk1
  rw [View.read_apply]
  show V c main_v40 (((cfg1.win 2).blk t).view.emb y) = V c main_v40 y
  refine congrArg (V c main_v40) (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- The bias row's block is the whole row at every point. -/
theorem bias_blk (c : Dev nD) (t : Fin cfg1.N) (y : S1x256.Idx) :
    (iblk1 (F := Ideal) V c 3 t : Vec Ideal S1x256 .f32) y = V c main_v43 y := by
  obtain ⟨-, -, -, -, e20, e21, e30, e31, e40, e41, e50, e51, e60, e61, -, -, -⟩ := grid_facts t
  unfold iblk1
  rw [View.read_apply]
  show V c main_v43 (((cfg1.win 3).blk t).view.emb y) = V c main_v43 y
  refine congrArg (V c main_v43) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The second weight matrix's block is the whole matrix at every point. -/
theorem wr_blk (c : Dev nD) (t : Fin cfg1.N) (y : S256x256.Idx) :
    (iblk1 (F := Ideal) V c 4 t : Vec Ideal S256x256 .f32) y = V c main_v41 y := by
  obtain ⟨-, -, -, -, e20, e21, e30, e31, e40, e41, e50, e51, e60, e61, -, -, -⟩ := grid_facts t
  unfold iblk1
  rw [View.read_apply]
  show V c main_v41 (((cfg1.win 4).blk t).view.emb y) = V c main_v41 y
  refine congrArg (V c main_v41) (funext fun a => Fin.ext ?_)
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- The head's weight column's block is the whole column at every point. -/
theorem hw_blk (c : Dev nD) (t : Fin cfg1.N) (y : S256x1.Idx) :
    (iblk1 (F := Ideal) V c 5 t : Vec Ideal S256x1 .f32) y = V c main_v42 y := by
  obtain ⟨-, -, -, -, e20, e21, e30, e31, e40, e41, e50, e51, e60, e61, -, -, -⟩ := grid_facts t
  unfold iblk1
  rw [View.read_apply]
  show V c main_v42 (((cfg1.win 5).blk t).view.emb y) = V c main_v42 y
  refine congrArg (V c main_v42) (funext fun a => Fin.ext ?_)
  match a with
  | ⟨0, _⟩ => show win1_5.index t (0 : Fin 2) * 256 + 1 * (y 0).val = (y 0).val; omega
  | ⟨1, _⟩ => show win1_5.index t (1 : Fin 2) * 1 + 1 * (y 1).val = (y 1).val; omega

/-- The head's bias's block is the whole one-entry array at every point. -/
theorem hb_blk (c : Dev nD) (t : Fin cfg1.N) (y : S1x1.Idx) :
    (iblk1 (F := Ideal) V c 6 t : Vec Ideal S1x1 .f32) y = V c main_v44 y := by
  obtain ⟨-, -, -, -, e20, e21, e30, e31, e40, e41, e50, e51, e60, e61, -, -, -⟩ := grid_facts t
  unfold iblk1
  rw [View.read_apply]
  show V c main_v44 (((cfg1.win 6).blk t).view.emb y) = V c main_v44 y
  refine congrArg (V c main_v44) (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- The output column as one function of the arrays the region finds: entry (r, ·) is the head of row r's hidden
    features. -/
def colOf (c : Dev nD) : S50000x1.Idx → Elt Ideal .f32 := fun i =>
  headAt (fun k : Fin 256 => denseAt (fun j : Fin 256 => meanA V c (ix2 ⟨(i 0).val, idx2_lt0 i⟩ j)) (fun j => hidA V c (ix2 ⟨(i 0).val, idx2_lt0 i⟩ j))
      (fun j => wlA V c (ix2 j k)) (fun j => wrA V c (ix2 j k)) (biasA V c (ix2 0 k))) (fun k => hwA V c (ix2 k 0)) (hbA V c (ix2 0 0))

/-- Row p of point t's output block is row 2000·t + p of the output array. -/
theorem out_row (t : Fin cfg1.N) (y : S2000x1.Idx) :
    ((((cfg1.win 7).blk t).view.emb y) 0).val = 2000 * t.val + (y 0).val := by
  obtain ⟨-, -, -, -, -, -, -, -, -, -, -, -, -, -, e70, -, -⟩ := grid_facts t
  show win1_7.index t (0 : Fin 2) * 2000 + 1 * (y 0).val = _
  omega

/-- What point t writes back is block t of `colOf`. -/
theorem flushed_eq (c : Dev nD) (t : Fin cfg1.N) :
    (dat1 (F := Ideal) V c).flushed 7 t = ((cfg1.win 7).blk t).view.read (Elt Ideal) (colOf V c) := by
  show (cfg1.win 7).cut (grid1.coords t) ((dat1 (F := Ideal) V c).after 7 t) = _
  rw [after1_7]
  unfold out1_7
  rw [View.canon_unit_zero zero_offsets]
  simp only [View.ld_unit_zero (S := S2000x256) zero_offsets, View.ld_unit_zero (S := S256x256) zero_offsets,
    View.ld_unit_zero (S := S1x256) zero_offsets, View.ld_unit_zero (S := S256x1) zero_offsets, View.ld_unit_zero (S := S1x1) zero_offsets]
  refine funext fun (y : S2000x1.Idx) => ?_
  obtain ⟨p, q, rfl⟩ : ∃ (p : Fin 2000) (q : Fin 1), y = ix2 p q := ⟨y 0, y 1, eq_ix2 y⟩
  obtain rfl : q = 0 := Subsingleton.elim q 0
  have hr := out_row t (ix2 p 0)
  show k1_pay1 (F := Ideal) (iblk1 V c 0 t) (iblk1 V c 1 t) (iblk1 V c 2 t) (iblk1 V c 4 t) (iblk1 V c 3 t) (iblk1 V c 5 t) (iblk1 V c 6 t) (ix2 p 0)
    = colOf V c (((cfg1.win 7).blk t).view.emb (ix2 p 0))
  refine (pay_apply _ _ _ _ _ _ _ p).trans ?_
  unfold colOf
  refine congr (congr (congrArg headAt (funext fun k => ?_)) (funext fun k => hw_blk V c t _)) (hb_blk V c t _)
  refine congr (congr (congr (congr (congrArg denseAt (funext fun j => ?_)) (funext fun j => ?_)) (funext fun j => wl_blk V c t _)) (funext fun j => wr_blk V c t _)) (bias_blk V c t _)
  · exact mean_blk V c t _ _ hr rfl
  · exact hid_blk V c t _ _ hr rfl

/-- An index of the output array is in point t's block iff each coordinate is in the block's range on its axis. -/
theorem mem_blk (t : Fin cfg1.N) (i : S50000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v45).slice (win1_7.rect t)).set ↔ _
  rw [View.set_slice_whole, Rect.mem_set_unit]
  exact Iff.rfl

/-- The 25 blocks cover the 50000 rows: row r is in the block of point r / 2000. -/
theorem covered (i : S50000x1.Idx) : ∃ t : Fin cfg1.N, (cfg1.win 7).flush t = true ∧ i ∈ ((cfg1.win 7).blk t).view.set := by
  have hi0 : (i 0).val < 50000 := idx2_lt0 i
  have hi1 : (i 1).val < 1 := idx2_lt1 i
  obtain ⟨t, ht⟩ := grid_onto ⟨(i 0).val / 2000, by omega⟩
  have q0 : win1_7.index t (0 : Fin 2) = (i 0).val / 2000 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 1 ≤ (i 1).val ∧ (i 1).val < win1_7.index t (1 : Fin 2) * 1 + 1; omega

/-- The output array after the region is `colOf`. -/
theorem out_eq (c : Dev nD) : outA V c = colOf V c :=
  (dat1 (F := Ideal) V c).arrAt_eq_of_cover 7 (colOf V c) (fun t _ => flushed_eq V c t) (covered)

theorem arr_apply (c : Dev nD) (p : Fin 50000) :
    outA V c (ix2 p 0)
      = headAt (fun k : Fin 256 => denseAt (fun j : Fin 256 => meanA V c (ix2 p j)) (fun j => hidA V c (ix2 p j))
          (fun j => wlA V c (ix2 j k)) (fun j => wrA V c (ix2 j k)) (biasA V c (ix2 0 k))) (fun k => hwA V c (ix2 k 0)) (hbA V c (ix2 0 0)) :=
  (congrFun (out_eq V c) (ix2 p 0)).trans rfl

end Cert.KernelIdeal.Layer2

end
-- ==== Proof.RefStages.lean ====
/-
  The reference program's stages, read one entry at a time at the extended reals.

  The neighbour mean at (p, k) is the aggregated sum at (p, k) divided by the degree of node p clipped below by
  one; a layer's output at (p, q) is `denseAt` of row p of the mean and of the layer's input, of column q of the
  two transposed weight matrices, and of the bias entry q; the result at node p is `headAt` of row p of the second
  layer's output, the head's transposed weight row and its bias.
-/
import proofs.«405419_j16372415332826_3_alg».proof.Proof.Gen.ReferenceIdeal.Read
import proofs.«405419_j16372415332826_3_alg».proof.Proof.Spec
import Idealize.ShloMosaic.Lib.ValueIdx
import Idealize.ShloMosaic.Lib.Pipeline.Value
import Idealize.ShloMosaic.PureOps.Ideal.Laws
import Idealize.ShloMosaic.PureOps.IdealRules

noncomputable section

namespace Cert.ReferenceIdeal.Stages

open Cert.ReferenceIdeal Cert.ReferenceIdeal.Gen Cert.ReferenceIdeal.Read Idealize.ShloMosaic Idealize.ShloMosaic.ValueIdx Cert.Sage

/-- The word of the constant one denotes the extended real 1. -/
theorem one_word : Ideal.ofBits .f32 0x3F800000#32 = 1 :=
  IdealRules.sign_bit.ideal_onePat .f32

/-- The first layer's neighbour mean: the aggregated sum over the clipped degree of the node. -/
theorem v21_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (p : Fin 50000) (k : Fin 128) :
    val_main_v21 (F := Ideal) x0 x1 (ix2 p k)
      = Ideal.div (val_main_v13 (F := Ideal) x0 x1 (ix2 p k)) (max 1 (val_main_v17 (F := Ideal) x1 (ix1 p))) := by
  rw [val_main_v21_apply, val_main_v20_apply, val_main_v19_apply, val_main_v18_apply, val_main_call0_v1_apply,
    val_main_call0_v0_apply, val_main_cst_3_apply]
  have e : idx_main_v19 (idx_main_v20 (ix2 p k)) = ix1 p := funext fun a => Fin.ext (by match a with | ⟨0, _⟩ => rfl)
  rw [e]
  simp only [Ideal.hostDivf_def, Ideal.maximumf_def, Ideal.ofBits_def, one_word]

/-- The first layer's output. -/
theorem v30_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (p : Fin 50000) (q : Fin 256) :
    val_main_v30 (F := Ideal) x0 x1 x2 x3 x4 (ix2 p q)
      = denseAt (fun k : Fin 128 => val_main_v21 (F := Ideal) x0 x1 (ix2 p k)) (fun k => x0 (ix2 p k))
          (fun k => val_main_v22 (F := Ideal) x2 (ix2 k q)) (fun k => val_main_v27 (F := Ideal) x4 (ix2 k q)) (x3 (ix1 q)) := by
  rw [val_main_v30_apply, val_main_v29_apply, val_main_v26_apply, val_main_v23_apply, val_main_v25_apply,
    val_main_v24_apply, val_main_v28_apply, val_main_call1_v0_apply, val_main_call1_cst_apply]
  have el : ∀ k : Fin 128, lidx_main_v23 (ix2 p q) k = ix2 p k := fun k =>
    funext fun a => Fin.ext (by match a with | ⟨0, _⟩ => rfl | ⟨1, _⟩ => rfl)
  have er : ∀ k : Fin 128, ridx_main_v23 (ix2 p q) k = ix2 k q := fun k =>
    funext fun a => Fin.ext (by match a with | ⟨0, _⟩ => rfl | ⟨1, _⟩ => rfl)
  have el' : ∀ k : Fin 128, lidx_main_v28 (ix2 p q) k = ix2 p k := fun k =>
    funext fun a => Fin.ext (by match a with | ⟨0, _⟩ => rfl | ⟨1, _⟩ => rfl)
  have er' : ∀ k : Fin 128, ridx_main_v28 (ix2 p q) k = ix2 k q := fun k =>
    funext fun a => Fin.ext (by match a with | ⟨0, _⟩ => rfl | ⟨1, _⟩ => rfl)
  have eb : idx_main_v24 (idx_main_v25 (ix2 p q)) = ix1 q :=
    funext fun a => Fin.ext (by match a with | ⟨0, _⟩ => rfl)
  simp only [el, er, el', er', eb, Ideal.maximumf_def, Ideal.addf_def, Ideal.ofBits_def, Ideal.ofBits_zero_f32, denseAt]

/-- The second layer's neighbour mean. -/
theorem v48_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (p : Fin 50000) (k : Fin 256) :
    val_main_v48 (F := Ideal) x0 x1 x2 x3 x4 (ix2 p k)
      = Ideal.div (val_main_v40 (F := Ideal) x0 x1 x2 x3 x4 (ix2 p k)) (max 1 (val_main_v44 (F := Ideal) x1 (ix1 p))) := by
  rw [val_main_v48_apply, val_main_v47_apply, val_main_v46_apply, val_main_v45_apply, val_main_call2_v1_apply,
    val_main_call2_v0_apply, val_main_cst_9_apply]
  have e : idx_main_v46 (idx_main_v47 (ix2 p k)) = ix1 p := funext fun a => Fin.ext (by match a with | ⟨0, _⟩ => rfl)
  rw [e]
  simp only [Ideal.hostDivf_def, Ideal.maximumf_def, Ideal.ofBits_def, one_word]

/-- The second layer's output. -/
theorem v57_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (p : Fin 50000) (k : Fin 256) :
    val_main_v57 (F := Ideal) x0 x1 x2 x3 x4 x5 x6 x7 (ix2 p k)
      = denseAt (fun j : Fin 256 => val_main_v48 (F := Ideal) x0 x1 x2 x3 x4 (ix2 p j)) (fun j => val_main_v30 (F := Ideal) x0 x1 x2 x3 x4 (ix2 p j))
          (fun j => val_main_v49 (F := Ideal) x5 (ix2 j k)) (fun j => val_main_v54 (F := Ideal) x7 (ix2 j k)) (x6 (ix1 k)) := by
  rw [val_main_v57_apply, val_main_v56_apply, val_main_v53_apply, val_main_v50_apply, val_main_v52_apply,
    val_main_v51_apply, val_main_v55_apply, val_main_call3_v0_apply, val_main_call3_cst_apply]
  have el : ∀ j : Fin 256, lidx_main_v50 (ix2 p k) j = ix2 p j := fun j =>
    funext fun a => Fin.ext (by match a with | ⟨0, _⟩ => rfl | ⟨1, _⟩ => rfl)
  have er : ∀ j : Fin 256, ridx_main_v50 (ix2 p k) j = ix2 j k := fun j =>
    funext fun a => Fin.ext (by match a with | ⟨0, _⟩ => rfl | ⟨1, _⟩ => rfl)
  have el' : ∀ j : Fin 256, lidx_main_v55 (ix2 p k) j = ix2 p j := fun j =>
    funext fun a => Fin.ext (by match a with | ⟨0, _⟩ => rfl | ⟨1, _⟩ => rfl)
  have er' : ∀ j : Fin 256, ridx_main_v55 (ix2 p k) j = ix2 j k := fun j =>
    funext fun a => Fin.ext (by match a with | ⟨0, _⟩ => rfl | ⟨1, _⟩ => rfl)
  have eb : idx_main_v51 (idx_main_v52 (ix2 p k)) = ix1 k :=
    funext fun a => Fin.ext (by match a with | ⟨0, _⟩ => rfl)
  simp only [el, er, el', er', eb, Ideal.maximumf_def, Ideal.addf_def, Ideal.ofBits_def, Ideal.ofBits_zero_f32, denseAt]

/-- The result at a node. -/
theorem v63_at (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S256, .f32⟩ : BufTy).Contents (Elt Ideal)) (x4 : (⟨S256x128, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S1x256, .f32⟩ : BufTy).Contents (Elt Ideal)) (x9 : (⟨S1, .f32⟩ : BufTy).Contents (Elt Ideal)) (p : Fin 50000) :
    val_main_v63 (F := Ideal) x0 x1 x2 x3 x4 x5 x6 x7 x8 x9 (ix1 p)
      = headAt (fun k : Fin 256 => val_main_v57 (F := Ideal) x0 x1 x2 x3 x4 x5 x6 x7 (ix2 p k)) (fun k => val_main_v58 (F := Ideal) x8 (ix2 k 0)) (x9 (ix1 0)) := by
  rw [val_main_v63_apply, val_main_v62_apply, val_main_v59_apply, val_main_v61_apply, val_main_v60_apply]
  have ei : idx_main_v63 (ix1 p) = ix2 p 0 :=
    funext fun a => Fin.ext (by match a with | ⟨0, _⟩ => exact Nat.div_one _ | ⟨1, _⟩ => rfl)
  rw [ei]
  have el : ∀ k : Fin 256, lidx_main_v59 (ix2 p (0 : Fin 1)) k = ix2 p k := fun k =>
    funext fun a => Fin.ext (by match a with | ⟨0, _⟩ => rfl | ⟨1, _⟩ => rfl)
  have er : ∀ k : Fin 256, ridx_main_v59 (ix2 p (0 : Fin 1)) k = ix2 k 0 := fun k =>
    funext fun a => Fin.ext (by match a with | ⟨0, _⟩ => rfl | ⟨1, _⟩ => rfl)
  have eb : idx_main_v60 (idx_main_v61 (ix2 p (0 : Fin 1))) = ix1 0 :=
    funext fun a => Fin.ext (by match a with | ⟨0, _⟩ => rfl)
  simp only [el, er, eb, Ideal.addf_def, headAt]

end Cert.ReferenceIdeal.Stages

end
-- ==== Proof.Bridge.lean ====
/-
  The kernel program's result is the reference's result, entry by entry, at the extended reals.

  Both programs compute, for each node, the same two-layer expression; they meet in three places. The neighbour
  mean: the kernel multiplies the aggregated sum by the reciprocal of the degree clipped below by one, the reference
  divides by the clipped degree; the divisor is at least one, hence not zero, so both are the sum times the divisor's
  inverse, whatever the sum (`Cert.Sage.mul_recip_clip`). The dense part: the kernel's blocks tile the rows and its
  two products into a zero accumulator are the reference's two contractions, so each output entry is the same
  `denseAt`; the bias is read from a reshaped vector on one side and from a broadcast vector on the other, both the
  vector's entry. The head: one more inner product plus the bias, then the column read as a vector. The first
  layer's outputs agree as whole arrays, so the second aggregation, which both programs apply to that array with
  the same edge list, agrees too.
-/
import proofs.«405419_j16372415332826_3_alg».proof.Proof.KernelHost
import proofs.«405419_j16372415332826_3_alg».proof.Proof.Layer1
import proofs.«405419_j16372415332826_3_alg».proof.Proof.Layer2
import proofs.«405419_j16372415332826_3_alg».proof.Proof.RefStages
import proofs.«405419_j16372415332826_3_alg».proof.Proof.Spec
import Idealize.ShloMosaic.Lib.ValueIdx
import Idealize.ShloMosaic.Lib.Pipeline.Value
import Idealize.ShloMosaic.PureOps.IdealRules

set_option maxRecDepth 16384

noncomputable section

namespace Cert.Bridge

open Cert.KernelIdeal Cert.KernelIdeal.Gen Cert.KernelIdeal.Host Idealize.ShloMosaic Idealize.ShloMosaic.TcCoe
open Idealize.ShloMosaic.ValueIdx Cert.Sage Idealize.SL.Sem
open Cert.ReferenceIdeal.Read Cert.ReferenceIdeal.Stages

/-! ## Layout operations read at an entry -/

/-- The word of 1.0 is the real number one. -/
theorem one_f32 : Ideal.ofBits .f32 0x3F800000#32 = 1 := IdealRules.sign_bit.ideal_onePat .f32

/-- A vector of 256 entries reshaped to one row, read at (0, q), is the vector at q. -/
theorem row_of_vec (x : Vec Ideal S256 .f32) (h : S256.ShapeCasts S1x256) (q : Fin 256) :
    shapeCast S1x256 x h (ix2 0 q) = x (ix1 q) :=
  shapeCast_apply x h (ix2 0 q) (ix1 q) (by
    rw [Shape.rowMajor_val_two, Shape.rowMajor_val_one]; show q.val = 0 * 256 + q.val; omega)

/-- A one-entry vector reshaped to a one-by-one array, read at (0, 0), is its entry. -/
theorem cell_of_vec (x : Vec Ideal S1 .f32) (h : S1.ShapeCasts S1x1) :
    shapeCast S1x1 x h (ix2 0 0) = x (ix1 0) :=
  shapeCast_apply x h (ix2 0 0) (ix1 0) (by
    rw [Shape.rowMajor_val_two, Shape.rowMajor_val_one]; rfl)

/-- A column of 50000 entries reshaped to a vector, read at p, is the column at (p, 0). -/
theorem vec_of_col (x : Vec Ideal S50000x1 .f32) (h : S50000x1.ShapeCasts S50000) (p : Fin 50000) :
    shapeCast S50000 x h (ix1 p) = x (ix2 p 0) :=
  shapeCast_apply x h (ix1 p) (ix2 p 0) (by
    rw [Shape.rowMajor_val_two, Shape.rowMajor_val_one]; show p.val * 1 + 0 = p.val; omega)

/-- The reciprocal column at node p: one over the degree clipped below by one. -/
theorem recipCol_at (d : FVec Ideal S50000 .f32) (p : Fin 50000) :
    recipCol (F := Ideal) d (ix2 p 0) = Ideal.div 1 (max 1 (d (ix1 p))) := by
  unfold recipCol
  show Ideal.div (broadcastInDim S50000x1 ![] bcast_S_S50000x1 (constant (F := Ideal) S_ .f32 0x3F800000#32) (ix2 p 0))
      (max (broadcastInDim S50000x1 ![] bcast_S_S50000x1 (id (constant (F := Ideal) S_ .f32 0x3F800000#32)) (ix2 p 0))
        (shapeCast _ d shapeCasts_S50000_S50000x1 (ix2 p 0))) = _
  rw [broadcastInDim_apply _ bcast_S_S50000x1 (constant (F := Ideal) S_ .f32 0x3F800000#32) (ix2 p 0) ix0 (fun a => a.elim0),
    broadcastInDim_apply _ bcast_S_S50000x1 (id (constant (F := Ideal) S_ .f32 0x3F800000#32)) (ix2 p 0) ix0 (fun a => a.elim0),
    shapeCast_apply d shapeCasts_S50000_S50000x1 (ix2 p 0) (ix1 p) (by
      rw [Shape.rowMajor_val_two, Shape.rowMajor_val_one]; show p.val = p.val * 1 + 0; omega)]
  show Ideal.div (Ideal.ofBits .f32 0x3F800000#32) (max (Ideal.ofBits .f32 0x3F800000#32) (d (ix1 p))) = _
  rw [one_f32]

/-- A 128-wide array scaled row by row by the reciprocal column is the array divided by the clipped degree. -/
theorem scaled_at128 (A : FVec Ideal S50000x128 .f32) (d : FVec Ideal S50000 .f32) (p : Fin 50000) (k : Fin 128) :
    mulf (F := Ideal) (φ := .f32) A (broadcastInDim S50000x128 ![0, 1] bcast_S50000x1_S50000x128_0_1 (recipCol (F := Ideal) d)) (ix2 p k)
      = Ideal.div (A (ix2 p k)) (max 1 (d (ix1 p))) := by
  show A (ix2 p k) * broadcastInDim S50000x128 ![0, 1] bcast_S50000x1_S50000x128_0_1 (recipCol (F := Ideal) d) (ix2 p k) = _
  rw [broadcastInDim_apply _ bcast_S50000x1_S50000x128_0_1 (recipCol (F := Ideal) d) (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl]),
    recipCol_at, mul_recip_clip]

/-- The same for a 256-wide array. -/
theorem scaled_at256 (A : FVec Ideal S50000x256 .f32) (d : FVec Ideal S50000 .f32) (p : Fin 50000) (k : Fin 256) :
    mulf (F := Ideal) (φ := .f32) A (broadcastInDim S50000x256 ![0, 1] bcast_S50000x1_S50000x256_0_1 (recipCol (F := Ideal) d)) (ix2 p k)
      = Ideal.div (A (ix2 p k)) (max 1 (d (ix1 p))) := by
  show A (ix2 p k) * broadcastInDim S50000x256 ![0, 1] bcast_S50000x1_S50000x256_0_1 (recipCol (F := Ideal) d) (ix2 p k) = _
  rw [broadcastInDim_apply _ bcast_S50000x1_S50000x256_0_1 (recipCol (F := Ideal) d) (ix2 p k) (ix2 p 0) (fun a => match a with
    | ⟨0, _⟩ => by show p.val = if (50000 : Nat) = 1 then 0 else p.val; rw [if_neg (by decide)]
    | ⟨1, _⟩ => by show 0 = if (1 : Nat) = 1 then 0 else k.val; rw [if_pos rfl]),
    recipCol_at, mul_recip_clip]

/-! ## The first layer -/

variable (m : (ℓ : Loc nD τ sig) → Buf (Elt Ideal) ℓ) (ρ : Dev nD → PrngReg) (c : Dev nD)

/-- The kernel's first mean operand is the reference's mean, entry by entry. -/
theorem mean1_at (p : Fin 50000) (k : Fin 128) :
    Layer1.meanA (V3 m ρ) c (ix2 p k) = val_main_v21 (F := Ideal) (a0 m c) (a1 m c) (ix2 p k) := by
  have e : Layer1.meanA (V3 m ρ) c = mulf (val_main_v13 (F := Ideal) (a0 m c) (a1 m c))
      (broadcastInDim S50000x128 ![0, 1] bcast_S50000x1_S50000x128_0_1 (recipCol (val_main_v17 (F := Ideal) (a1 m c)))) := v23_eq m ρ c
  rw [e, scaled_at128, v21_at (a0 m c) (a1 m c) (a2 m c) (a3 m c) (a4 m c)]

/-- The first layer's outputs are one array. -/
theorem hid_eq : hid m ρ c = val_main_v30 (F := Ideal) (a0 m c) (a1 m c) (a2 m c) (a3 m c) (a4 m c) := by
  funext i
  obtain ⟨p, q, rfl⟩ : ∃ (p : Fin 50000) (q : Fin 256), i = ix2 p q := ⟨i 0, i 1, eq_ix2 i⟩
  refine (Layer1.arr_apply (V3 m ρ) c p q).trans ?_
  rw [v30_at]
  have h1 : (fun k : Fin 128 => Layer1.meanA (V3 m ρ) c (ix2 p k)) = fun k => val_main_v21 (F := Ideal) (a0 m c) (a1 m c) (ix2 p k) :=
    funext fun k => mean1_at m ρ c p k
  have h2 : Layer1.featA (V3 m ρ) c = a0 m c := arg0_eq m ρ c
  have h3 : Layer1.wlA (V3 m ρ) c = val_main_v22 (F := Ideal) (a2 m c) := v24_eq m ρ c
  have h4 : Layer1.wrA (V3 m ρ) c = val_main_v27 (F := Ideal) (a4 m c) := v25_eq m ρ c
  have h5 : Layer1.biasA (V3 m ρ) c (ix2 0 q) = a3 m c (ix1 q) := by
    have e : Layer1.biasA (V3 m ρ) c = shapeCast _ (a3 m c) shapeCasts_S256_S1x256 := v26_eq m ρ c
    rw [e]; exact row_of_vec (a3 m c) shapeCasts_S256_S1x256 q
  rw [h1, h2, h3, h4, h5]

/-! ## The second layer and the head -/

/-- The degree is counted once by the kernel and twice by the reference: the same term. -/
theorem deg_eq (x1 : (⟨S2x800000, .i32⟩ : BufTy).Contents (Elt Ideal)) :
    val_main_v44 (F := Ideal) x1 = val_main_v17 (F := Ideal) x1 := rfl

/-- The kernel's second mean operand is the reference's second mean, entry by entry. -/
theorem mean2_at (p : Fin 50000) (k : Fin 256) :
    Layer2.meanA (V5 m ρ) c (ix2 p k) = val_main_v48 (F := Ideal) (a0 m c) (a1 m c) (a2 m c) (a3 m c) (a4 m c) (ix2 p k) := by
  have e : Layer2.meanA (V5 m ρ) c = mulf (agg2 (hid m ρ c) (a1 m c))
      (broadcastInDim S50000x256 ![0, 1] bcast_S50000x1_S50000x256_0_1 (recipCol (val_main_v17 (F := Ideal) (a1 m c)))) := v39_eq m ρ c
  rw [e, scaled_at256, v48_at, deg_eq, hid_eq, ← ref_v40_eq]

/-- One hidden entry of the second layer. -/
theorem dense2_at (p : Fin 50000) (k : Fin 256) :
    denseAt (fun j : Fin 256 => Layer2.meanA (V5 m ρ) c (ix2 p j)) (fun j => Layer2.hidA (V5 m ρ) c (ix2 p j))
        (fun j => Layer2.wlA (V5 m ρ) c (ix2 j k)) (fun j => Layer2.wrA (V5 m ρ) c (ix2 j k)) (Layer2.biasA (V5 m ρ) c (ix2 0 k))
      = val_main_v57 (F := Ideal) (a0 m c) (a1 m c) (a2 m c) (a3 m c) (a4 m c) (a5 m c) (a6 m c) (a7 m c) (ix2 p k) := by
  rw [v57_at]
  have h1 : (fun j : Fin 256 => Layer2.meanA (V5 m ρ) c (ix2 p j)) = fun j => val_main_v48 (F := Ideal) (a0 m c) (a1 m c) (a2 m c) (a3 m c) (a4 m c) (ix2 p j) :=
    funext fun j => mean2_at m ρ c p j
  have h2 : Layer2.hidA (V5 m ρ) c = val_main_v30 (F := Ideal) (a0 m c) (a1 m c) (a2 m c) (a3 m c) (a4 m c) := (v27_eq m ρ c).trans (hid_eq m ρ c)
  have h3 : Layer2.wlA (V5 m ρ) c = val_main_v49 (F := Ideal) (a5 m c) := v40_eq m ρ c
  have h4 : Layer2.wrA (V5 m ρ) c = val_main_v54 (F := Ideal) (a7 m c) := v41_eq m ρ c
  have h5 : Layer2.biasA (V5 m ρ) c (ix2 0 k) = a6 m c (ix1 k) := by
    have e : Layer2.biasA (V5 m ρ) c = shapeCast _ (a6 m c) shapeCasts_S256_S1x256 := v43_eq m ρ c
    rw [e]; exact row_of_vec (a6 m c) shapeCasts_S256_S1x256 k
  rw [h1, h2, h3, h4, h5]

/-- THE RESULT: the kernel program's result buffer holds the reference's result stage of the same arguments. -/
theorem result_eq : W7 m ρ c (Proc.devRef .tc main_v46) = val_main_v63 (F := Ideal) (a0 m c) (a1 m c) (a2 m c) (a3 m c) (a4 m c) (a5 m c) (a6 m c) (a7 m c) (a8 m c) (a9 m c) := by
  rw [v46_eq]
  funext i
  obtain ⟨p, rfl⟩ : ∃ p : Fin 50000, i = ix1 p := ⟨i 0, eq_ix1 i⟩
  rw [vec_of_col (outCol m ρ c) shapeCasts_S50000x1_S50000 p]
  refine (Layer2.arr_apply (V5 m ρ) c p).trans ?_
  rw [v63_at]
  have h1 : (fun k : Fin 256 => denseAt (fun j : Fin 256 => Layer2.meanA (V5 m ρ) c (ix2 p j)) (fun j => Layer2.hidA (V5 m ρ) c (ix2 p j))
        (fun j => Layer2.wlA (V5 m ρ) c (ix2 j k)) (fun j => Layer2.wrA (V5 m ρ) c (ix2 j k)) (Layer2.biasA (V5 m ρ) c (ix2 0 k)))
      = fun k => val_main_v57 (F := Ideal) (a0 m c) (a1 m c) (a2 m c) (a3 m c) (a4 m c) (a5 m c) (a6 m c) (a7 m c) (ix2 p k) := funext fun k => dense2_at m ρ c p k
  have h2 : Layer2.hwA (V5 m ρ) c = val_main_v58 (F := Ideal) (a8 m c) := v42_eq m ρ c
  have h3 : Layer2.hbA (V5 m ρ) c (ix2 0 0) = a9 m c (ix1 0) := by
    have e : Layer2.hbA (V5 m ρ) c = shapeCast _ (a9 m c) shapeCasts_S1_S1x1 := v44_eq m ρ c
    rw [e]; exact cell_of_vec (a9 m c) shapeCasts_S1_S1x1
  rw [h1, h2, h3]

end Cert.Bridge

end
-- ==== Proof.lean ====
/-
  The certificate of a two-layer graph-convolution regressor: a Pallas kernel pair with its host glue against a
  plain reference, equal at the extended reals.

  Both programs gather each edge's source row, sum the rows at the edge's destination, turn the sums into means by
  the node's in-degree clipped below by one, apply  max (mean · Wlᵀ + b + x · Wrᵀ, 0)  twice and finish with a linear
  head. The kernel program runs the two dense parts as launches over 25 blocks of 2000 rows and takes the mean by a
  product with the reciprocal of the clipped degree; the reference divides. The three frames are the generated ones
  (the reference's is its generated run with the result dropped); the idealization rewrote nothing, so `preserves`
  is trivial; `algebraic` puts the kernel program's run, whose result buffer is read back through the host folds and
  the two regions' block covers, beside the reference's generated run, and states both results as the reference's
  own last stage of the arguments (Proof/Bridge.lean: the one law used is that a product with the reciprocal of a
  quantity at least one is the quotient by it, which holds at every extended real).
-/
import proofs.«405419_j16372415332826_3_alg».proof.Defs
import proofs.«405419_j16372415332826_3_alg».proof.Proof.Gen.Kernel
import proofs.«405419_j16372415332826_3_alg».proof.Proof.Gen.Kernel.Skeleton
import proofs.«405419_j16372415332826_3_alg».proof.Proof.Gen.Kernel.Launch
import proofs.«405419_j16372415332826_3_alg».proof.Proof.Gen.Kernel.Points
import proofs.«405419_j16372415332826_3_alg».proof.Proof.Gen.Kernel.Frame
import proofs.«405419_j16372415332826_3_alg».proof.Proof.Gen.KernelIdeal
import proofs.«405419_j16372415332826_3_alg».proof.Proof.Gen.KernelIdeal.Skeleton
import proofs.«405419_j16372415332826_3_alg».proof.Proof.Gen.KernelIdeal.Launch
import proofs.«405419_j16372415332826_3_alg».proof.Proof.Gen.KernelIdeal.Points
import proofs.«405419_j16372415332826_3_alg».proof.Proof.Gen.KernelIdeal.Frame
import proofs.«405419_j16372415332826_3_alg».proof.Proof.Gen.ReferenceIdeal
import proofs.«405419_j16372415332826_3_alg».proof.Proof.Gen.Pre_finite_inputs
import proofs.«405419_j16372415332826_3_alg».proof.Proof.Gen.ReferenceIdeal.Run
import proofs.«405419_j16372415332826_3_alg».proof.Proof.Gen.ReferenceIdeal.Read
import proofs.«405419_j16372415332826_3_alg».proof.Proof.KernelRun
import proofs.«405419_j16372415332826_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the (agreeing) arguments. -/
theorem algebraic : Cert.algebraic_KernelIdeal_ReferenceIdeal := by
  intro m ρ m' ρ' _ hagree
  refine ⟨fun c => Cert.ReferenceIdeal.Read.val_main_v63 (F := Ideal) (Cert.KernelIdeal.Host.a0 m c) (Cert.KernelIdeal.Host.a1 m c)
      (Cert.KernelIdeal.Host.a2 m c) (Cert.KernelIdeal.Host.a3 m c) (Cert.KernelIdeal.Host.a4 m c) (Cert.KernelIdeal.Host.a5 m c)
      (Cert.KernelIdeal.Host.a6 m c) (Cert.KernelIdeal.Host.a7 m c) (Cert.KernelIdeal.Host.a8 m c) (Cert.KernelIdeal.Host.a9 m c), ?_, ?_⟩
  · exact (θ_run Cert.KernelIdeal.defs _ _).mono
      (fun r h c => ⟨(h c).1.trans (Cert.Bridge.result_eq m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v63_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
